-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S11008x256 : Shape := ⟨2, ![11008, 256]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_arg5 : FVec F S16x4096 .f32) (main_arg6 : FVec F S11008x16 .f32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_v19 : FVec F S16x4096 .f32 := Host.absf main_arg5
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S11008x16 .f32 := Host.absf main_arg6
  let main_cst_8 : FVec F S_ .f32 := constant S_ .f32 0x7F800000#32
  let main_v25 : FVec F S11008x16 .f32 := broadcastInDim S11008x16 ![] bcast_S_S11008x16 main_cst_8
  let main_v26 : IVec S11008x16 1 := cmpf .olt main_v24 main_v25
  let main_c_9 : IVec S_ 1 := constantI S_ 1 1#1
  let main_v27 : IVec S_ 1 := (fun x v => Host.reduce IntOp.andi x v reducesTo_S11008x16_S_d0_1 h_S_) main_v26 main_c_9
  let main_v28 : IVec S_ 1 := andi main_v23 main_v27
  main_v28

def fn {F : FTy → Type} [FloatOps F] (main_arg0 : FVec F S256x4096 .f32) (main_arg1 : IVec S11008x256 32) (main_arg2 : FVec F S11008 .f32) (main_arg3 : FVec F S11008 .f32) (main_arg4 : FVec F S11008 .f32) (main_arg5 : FVec F S16x4096 .f32) (main_arg6 : FVec F S11008x16 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg5 main_arg6 main_v13 main_v16
-- ==== Kernel.lean ====
abbrev S256x4096 : Shape := ⟨2, ![256, 4096]⟩
abbrev S11008x256 : Shape := ⟨2, ![11008, 256]⟩
abbrev S11008 : Shape := ⟨1, ![11008]⟩
abbrev S16x4096 : Shape := ⟨2, ![16, 4096]⟩
abbrev S11008x16 : Shape := ⟨2, ![11008, 16]⟩
abbrev S_ : Shape := ⟨0, ![]⟩
abbrev S256 : Shape := ⟨1, ![256]⟩
abbrev S256x1 : Shape := ⟨2, ![256, 1]⟩
abbrev S256x16 : Shape := ⟨2, ![256, 16]⟩
abbrev S256x256x16 : Shape := ⟨3, ![256, 256, 16]⟩
abbrev S256x16x256 : Shape := ⟨3, ![256, 16, 256]⟩
abbrev S1x11008 : Shape := ⟨2, ![1, 11008]⟩
abbrev S16x11008 : Shape := ⟨2, ![16, 11008]⟩
abbrev S256x11008 : Shape := ⟨2, ![256, 11008]⟩
abbrev S256x256 : Shape := ⟨2, ![256, 256]⟩
abbrev S1x256 : Shape := ⟨2, ![1, 256]⟩
abbrev S16x256 : Shape := ⟨2, ![16, 256]⟩

abbrev nBuf : Space → Nat
  | .hbm => 20
  | .vmem => 15
  | .smem => 0
  | _ => 0

abbrev bufTy : (tb : Table) → Fin (tcTables nBuf tb) → BufTy
  | .hbm, ⟨0, _⟩ => ⟨S256x4096, .f32⟩
  | .hbm, ⟨1, _⟩ => ⟨S11008x256, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S16x4096, .f32⟩
  | .hbm, ⟨6, _⟩ => ⟨S11008x16, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x16, .f32⟩
  | .hbm, ⟨11, _⟩ => ⟨S256x256x16, .f32⟩
  | .hbm, ⟨12, _⟩ => ⟨S256x16x256, .f32⟩
  | .hbm, ⟨13, _⟩ => ⟨S256x4096, .f32⟩
  | .hbm, ⟨14, _⟩ => ⟨S256x4096, .bf16⟩
  | .hbm, ⟨15, _⟩ => ⟨S1x11008, .f32⟩
  | .hbm, ⟨16, _⟩ => ⟨S1x11008, .f32⟩
  | .hbm, ⟨17, _⟩ => ⟨S1x11008, .f32⟩
  | .hbm, ⟨18, _⟩ => ⟨S16x11008, .f32⟩
  | .hbm, ⟨19, _⟩ => ⟨S256x11008, .f32⟩
  | .local _ .vmem, ⟨0, _⟩ => ⟨S256x4096, .bf16⟩
  | .local _ .vmem, ⟨1, _⟩ => ⟨S256x256, .i32⟩
  | .local _ .vmem, ⟨2, _⟩ => ⟨S256x256, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x16, .f32⟩
  | .local _ .vmem, ⟨10, _⟩ => ⟨S16x256, .f32⟩
  | .local _ .vmem, ⟨11, _⟩ => ⟨S16x256, .f32⟩
  | .local _ .vmem, ⟨12, _⟩ => ⟨S256x1, .f32⟩
  | .local _ .vmem, ⟨13, _⟩ => ⟨S256x256, .f32⟩
  | .local _ .vmem, ⟨14, _⟩ => ⟨S256x256, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S256x4096_S256_d1 : S256x4096.ReducesTo [1] S256
  h_S_ : 0 < S_.numel
  bcast_S256_S256x1_0 : S256.BroadcastsInDim S256x1 (![0] : Fin 1 → Fin S256x1.rank)
  shapeCasts_S256x4096_S256x256x16 : S256x4096.ShapeCasts S256x256x16
  transposes_S256x256x16_S256x16x256_0_2_1 : S256x256x16.Transposes [0, 2, 1] S256x16x256
  shapeCasts_S256x16x256_S256x4096 : S256x16x256.ShapeCasts S256x4096
  bitsLt_bf16_f32 : FTy.bits .bf16 < FTy.bits .f32
  shapeCasts_S11008_S1x11008 : S11008.ShapeCasts S1x11008
  transposes_S11008x16_S16x11008_1_0 : S11008x16.Transposes [1, 0] S16x11008
  inb_S256x256_S256x256_0_0 : ∀ a, (![0, 0] : Fin 2 → Nat) a + S256x256.size a ≤ S256x256.size a
  h_S256x256 : 0 < S256x256.numel
  inb_S256x4096_S256x256_0_0 : ∀ a, (![0, 0] : Fin 2 → Nat) a + S256x256.size a ≤ S256x4096.size a
  shapeCasts_S256x256_S256x256 : S256x256.ShapeCasts S256x256
  inb_S256x4096_S256x256_0_256 : ∀ a, (![0, 256] : Fin 2 → Nat) a + S256x256.size a ≤ S256x4096.size a
  inb_S256x4096_S256x256_0_512 : ∀ a, (![0, 512] : Fin 2 → Nat) a + S256x256.size a ≤ S256x4096.size a
  inb_S256x4096_S256x256_0_768 : ∀ a, (![0, 768] : Fin 2 → Nat) a + S256x256.size a ≤ S256x4096.size a
  inb_S256x4096_S256x256_0_1024 : ∀ a, (![0, 1024] : Fin 2 → Nat) a + S256x256.size a ≤ S256x4096.size a
  inb_S256x4096_S256x256_0_1280 : ∀ a, (![0, 1280] : Fin 2 → Nat) a + S256x256.size a ≤ S256x4096.size a
  inb_S256x4096_S256x256_0_1536 : ∀ a, (![0, 1536] : Fin 2 → Nat) a + S256x256.size a ≤ S256x4096.size a
  inb_S256x4096_S256x256_0_1792 : ∀ a, (![0, 1792] : Fin 2 → Nat) a + S256x256.size a ≤ S256x4096.size a
  inb_S256x4096_S256x256_0_2048 : ∀ a, (![0, 2048] : Fin 2 → Nat) a + S256x256.size a ≤ S256x4096.size a
  inb_S256x4096_S256x256_0_2304 : ∀ a, (![0, 2304] : Fin 2 → Nat) a + S256x256.size a ≤ S256x4096.size a
  inb_S256x4096_S256x256_0_2560 : ∀ a, (![0, 2560] : Fin 2 → Nat) a + S256x256.size a ≤ S256x4096.size a
  inb_S256x4096_S256x256_0_2816 : ∀ a, (![0, 2816] : Fin 2 → Nat) a + S256x256.size a ≤ S256x4096.size a
  inb_S256x4096_S256x256_0_3072 : ∀ a, (![0, 3072] : Fin 2 → Nat) a + S256x256.size a ≤ S256x4096.size a
  inb_S256x4096_S256x256_0_3328 : ∀ a, (![0, 3328] : Fin 2 → Nat) a + S256x256.size a ≤ S256x4096.size a
  inb_S256x4096_S256x256_0_3584 : ∀ a, (![0, 3584] : Fin 2 → Nat) a + S256x256.size a ≤ S256x4096.size a
  inb_S256x4096_S256x256_0_3840 : ∀ a, (![0, 3840] : Fin 2 → Nat) a + S256x256.size a ≤ S256x4096.size a
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  dot_S256x4096_S16x4096_S256x16_1_1_0_0_n_n_wf : DotDims.WF S256x4096 S16x4096 S256x16 [1] [1] [0] [0] [] []
  dot_S256x256_S256x256_S256x256_1_1_0_0_n_n_wf : DotDims.WF S256x256 S256x256 S256x256 [1] [1] [0] [0] [] []
  dot_S256x16_S16x256_S256x256_1_0_0_1_n_n_wf : DotDims.WF S256x16 S16x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S11008x256.size a
  hwx0_1 : ∀ i : grid0.Coords, EltTy.bits .i32 = 32 ∨ (Rect.block (s := S11008x256) S256x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x11008.size a
  hwx0_6 : ∀ i : grid0.Coords, EltTy.bits .f32 = 32 ∨ (Rect.block (s := S16x11008) S16x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x11008.size a
  hwx0_8 : ∀ i : grid0.Coords, EltTy.bits .f32 = 32 ∨ (Rect.block (s := S256x11008) S256x256.size (cc0_transform_8 i) (hinb0_8 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x16_S16x256_S256x256_1_0_0_1_n_n : DotDims S256x16 S16x256 S256x256 where
  lhsContracting := [1]
  rhsContracting := [0]
  lhsNonContracting := [0]
  rhsNonContracting := [1]
  lhsBatch := []
  rhsBatch := []
  wf := dot_S256x16_S16x256_S256x256_1_0_0_1_n_n_wf

abbrev win0_0 : Pipeline.Window sig grid0 :=
  Pipeline.Window.ofSpec (Memref.whole main_v6) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S16x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x4096 : Shape := ⟨2, ![256, 4096]⟩
abbrev S11008x256 : Shape := ⟨2, ![11008, 256]⟩
abbrev S11008 : Shape := ⟨1, ![11008]⟩
abbrev S16x4096 : Shape := ⟨2, ![16, 4096]⟩
abbrev S11008x16 : Shape := ⟨2, ![11008, 16]⟩
abbrev S16 : Shape := ⟨1, ![16]⟩
abbrev S_ : Shape := ⟨0, ![]⟩
abbrev S11008x256x1 : Shape := ⟨3, ![11008, 256, 1]⟩
abbrev S1x1x16 : Shape := ⟨3, ![1, 1, 16]⟩
abbrev S11008x256x16 : Shape := ⟨3, ![11008, 256, 16]⟩
abbrev S11008x4096 : Shape := ⟨2, ![11008, 4096]⟩
abbrev S256x11008 : Shape := ⟨2, ![256, 11008]⟩
abbrev S1x11008 : Shape := ⟨2, ![1, 11008]⟩
abbrev S256 : Shape := ⟨1, ![256]⟩
abbrev S256x1 : Shape := ⟨2, ![256, 1]⟩
abbrev S256x16 : Shape := ⟨2, ![256, 16]⟩

abbrev nBuf : Space → Nat
  | .hbm => 45
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S11008x256, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S16x4096, .f32⟩
  | .hbm, ⟨6, _⟩ => ⟨S11008x16, .f32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S11008x256x1, .i32⟩
  | .hbm, ⟨12, _⟩ => ⟨S1x1x16, .i32⟩
  | .hbm, ⟨13, _⟩ => ⟨S11008x256x16, .i32⟩
  | .hbm, ⟨14, _⟩ => ⟨S11008x256x16, .i32⟩
  | .hbm, ⟨15, _⟩ => ⟨S11008x256x16, .i32⟩
  | .hbm, ⟨16, _⟩ => ⟨S_, .i32⟩
  | .hbm, ⟨17, _⟩ => ⟨S11008x256x16, .i32⟩
  | .hbm, ⟨18, _⟩ => ⟨S11008x256x16, .i32⟩
  | .hbm, ⟨19, _⟩ => ⟨S11008x4096, .i32⟩
  | .hbm, ⟨20, _⟩ => ⟨S11008x4096, .f32⟩
  | .hbm, ⟨21, _⟩ => ⟨S_, .f32⟩
  | .hbm, ⟨22, _⟩ => ⟨S11008x4096, .f32⟩
  | .hbm, ⟨23, _⟩ => ⟨S11008x4096, .f32⟩
  | .hbm, ⟨24, _⟩ => ⟨S256x11008, .f32⟩
  | .hbm, ⟨25, _⟩ => ⟨S1x11008, .f32⟩
  | .hbm, ⟨26, _⟩ => ⟨S256x11008, .f32⟩
  | .hbm, ⟨27, _⟩ => ⟨S256x11008, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S1x11008, .f32⟩
  | .hbm, ⟨32, _⟩ => ⟨S256x11008, .f32⟩
  | .hbm, ⟨33, _⟩ => ⟨S256x11008, .f32⟩
  | .hbm, ⟨34, _⟩ => ⟨S256x11008, .f32⟩
  | .hbm, ⟨35, _⟩ => ⟨S256x11008, .f32⟩
  | .hbm, ⟨36, _⟩ => ⟨S256x16, .f32⟩
  | .hbm, ⟨37, _⟩ => ⟨S256x11008, .f32⟩
  | .hbm, ⟨38, _⟩ => ⟨S_, .f32⟩
  | .hbm, ⟨39, _⟩ => ⟨S256x11008, .f32⟩
  | .hbm, ⟨40, _⟩ => ⟨S256x11008, .f32⟩
  | .hbm, ⟨41, _⟩ => ⟨S256x11008, .f32⟩
  | .hbm, ⟨42, _⟩ => ⟨S1x11008, .f32⟩
  | .hbm, ⟨43, _⟩ => ⟨S256x11008, .f32⟩
  | .hbm, ⟨44, _⟩ => ⟨S256x11008, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S11008x256_S11008x256x1_0_1 : S11008x256.BroadcastsInDim S11008x256x1 (![0, 1] : Fin 2 → Fin S11008x256x1.rank)
  bcast_S16_S1x1x16_2 : S16.BroadcastsInDim S1x1x16 (![2] : Fin 1 → Fin S1x1x16.rank)
  bcast_S11008x256x1_S11008x256x16_0_1_2 : S11008x256x1.BroadcastsInDim S11008x256x16 (![0, 1, 2] : Fin 3 → Fin S11008x256x16.rank)
  bcast_S1x1x16_S11008x256x16_0_1_2 : S1x1x16.BroadcastsInDim S11008x256x16 (![0, 1, 2] : Fin 3 → Fin S11008x256x16.rank)
  bcast_S_S11008x256x16 : S_.BroadcastsInDim S11008x256x16 (![] : Fin 0 → Fin S11008x256x16.rank)
  shapeCasts_S11008x256x16_S11008x4096 : S11008x256x16.ShapeCasts S11008x4096
  bcast_S_S11008x4096 : S_.BroadcastsInDim S11008x4096 (![] : Fin 0 → Fin S11008x4096.rank)
  bcast_S11008_S1x11008_1 : S11008.BroadcastsInDim S1x11008 (![1] : Fin 1 → Fin S1x11008.rank)
  bcast_S1x11008_S256x11008_0_1 : S1x11008.BroadcastsInDim S256x11008 (![0, 1] : Fin 2 → Fin S256x11008.rank)
  reducesTo_S256x4096_S256_d1 : S256x4096.ReducesTo [1] S256
  h_S_ : 0 < S_.numel
  bcast_S256_S256x1_0 : S256.BroadcastsInDim S256x1 (![0] : Fin 1 → Fin S256x1.rank)
  bcast_S256x1_S256x11008_0_1 : S256x1.BroadcastsInDim S256x11008 (![0, 1] : Fin 2 → Fin S256x11008.rank)
  bcast_S_S256x11008 : S_.BroadcastsInDim S256x11008 (![] : Fin 0 → Fin S256x11008.rank)
  dot_S256x4096_S11008x4096_S256x11008_1_1_0_0_n_n_wf : DotDims.WF S256x4096 S11008x4096 S256x11008 [1] [1] [0] [0] [] []
  dot_S256x4096_S16x4096_S256x16_1_1_0_0_n_n_wf : DotDims.WF S256x4096 S16x4096 S256x16 [1] [1] [0] [0] [] []
  dot_S256x16_S11008x16_S256x11008_1_1_0_0_n_n_wf : DotDims.WF S256x16 S11008x16 S256x11008 [1] [1] [0] [0] [] []

variable [Facts₀]

def dot_S256x4096_S11008x4096_S256x11008_1_1_0_0_n_n : DotDims S256x4096 S11008x4096 S256x11008 where
  lhsContracting := [1]
  rhsContracting := [1]
  lhsNonContracting := [0]
  rhsNonContracting := [0]
  lhsBatch := []
  rhsBatch := []
  wf := dot_S256x4096_S11008x4096_S256x11008_1_1_0_0_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S11008x16_S256x11008_1_1_0_0_n_n : DotDims S256x16 S11008x16 S256x11008 where
  lhsContracting := [1]
  rhsContracting := [1]
  lhsNonContracting := [0]
  rhsNonContracting := [0]
  lhsBatch := []
  rhsBatch := []
  wf := dot_S256x16_S11008x16_S256x11008_1_1_0_0_n_n_wf

class Facts : Prop extends Facts₀ where

variable [Facts]
-- ==== Proof.Fields.lean ====
/-
  Two-bit fields of a packed word as ternary weights, and two regroupings of finite sums on the
  extended reals.

  A 32-bit word holds sixteen two-bit fields; field `j` is `(w >> 2j) & 3`, a number in {0, 1, 2, 3},
  and the weight it encodes is that number minus one. A row of 4096 weights is stored as 256 words,
  weight `16·k + j` in field `j` of word `k`. A contraction over the 4096 positions can therefore be
  summed field by field: first over the words `k` for a fixed field `j`, then over the sixteen
  fields. Addition on the extended reals is commutative and associative (nothing else is used), so
  the regrouping holds at every value, infinite ones included.
-/
import Idealize.ShloMosaic.PureOps.Ideal
import Idealize.ShloMosaic.Lib.ValueIdx

noncomputable section

namespace Cert.Fields

open Idealize.ShloMosaic

/-- The weight encoded by the two-bit field of `w` that starts at bit `s`: the field's value, read as an
    integer, minus one. -/
def weight (w s : BitVec 32) : EReal :=
  (((IntOp.andi (IntOp.shrsi .host w s) 3#32).toInt : ℝ) : EReal) - 1

/-- The shift the reference computes for field `j`, `j · 2` in 32-bit words, is the numeral `2 j`. -/
theorem shift_word (j : Fin 16) : (BitVec.ofNat 32 j.val * 2#32 : BitVec 32) = BitVec.ofNat 32 (2 * j.val) := by
  revert j; decide

/-- A sum over the 4096 positions, regrouped by field: position `16·k + j` is field `j` of word `k`. -/
theorem sum_by_field (f : Fin 4096 → EReal) :
    ∑ i, f i = ∑ j : Fin 16, ∑ k : Fin 256, f ⟨16 * k.val + j.val, by omega⟩ := by
  rw [← Equiv.sum_comp (finProdFinEquiv : Fin 256 × Fin 16 ≃ Fin 4096) f, Fintype.sum_prod_type, Finset.sum_comm]
  refine Finset.sum_congr rfl fun j _ => Finset.sum_congr rfl fun k _ => congrArg f (Fin.ext ?_)
  show j.val + 16 * k.val = 16 * k.val + j.val
  omega

/-- Sixteen addends accumulated one after the other onto `z` are `z` plus their sum. -/
theorem add_sixteen (z : EReal) (g : Fin 16 → EReal) :
    (((((((((((((((z + g 0) + g 1) + g 2) + g 3) + g 4) + g 5) + g 6) + g 7) + g 8) + g 9) + g 10) + g 11) + g 12) + g 13) + g 14) + g 15
      = z + ∑ j, g j := by
  simp only [Fin.sum_univ_succ, Fin.sum_univ_zero, add_zero, add_assoc]
  rfl

end Cert.Fields

end
-- ==== Proof.Pass.lean ====
/-
  One pass of the kernel's unpacking, read at an index.

  The body takes the two-bit field at a fixed shift `s` out of every word of a 256 × 256 block of packed
  words, turns it into a weight (the field's value minus one) and multiplies a 256 × 256 column block `X`
  of the staged activations by the transpose of that weight block. At the exact values the product at
  `(p, q)` is the sum over the 256 words `k` of `X (p, k)` times the weight in word `(q, k)`: a conversion of
  an integer to a float is that integer whatever the float format, and a right shift by less than the
  word's width does not depend on which arithmetic unit performs it.
-/
import proofs.«401683_j34686155882823_2_alg».proof.Proof.Gen.KernelIdeal.Skeleton
import proofs.«401683_j34686155882823_2_alg».proof.Proof.Fields
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws

noncomputable section

namespace Cert.KernelIdeal.Unpack

open Cert.KernelIdeal Cert.KernelIdeal.Gen Idealize.ShloMosaic Idealize.ShloMosaic.TcCoe Idealize.ShloMosaic.ValueIdx

variable {F : FTy → Type} [FloatOps F]

/-- One pass, as the body spells it: field `s` of the words `W` as weights, against the column block `X`. -/
def pass (X : Vec F S256x256 .bf16) (W : Vec F S256x256 .i32) (s : BitVec 32) : FVec F S256x256 .f32 :=
  matmul dot_S256x256_S256x256_S256x256_1_1_0_0_n_n none (shapeCast S256x256 X shapeCasts_S256x256_S256x256)
    (subf (sitofp .bf16 (andi (shrsi W (broadcast S256x256 s)) (broadcast S256x256 3#32)))
      (broadcast S256x256 (Scalar.ofBits .bf16 0x3F80#16)))
    (constant S256x256 .f32 0x00000000#32)

theorem lhs_pass_0 (i : S256x256.Idx) (q : dot_S256x256_S256x256_S256x256_1_1_0_0_n_n.contr.Idx) :
    (dot_S256x256_S256x256_S256x256_1_1_0_0_n_n.lhsIdx i q 0).val = (i 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem lhs_pass_1 (i : S256x256.Idx) (q : dot_S256x256_S256x256_S256x256_1_1_0_0_n_n.contr.Idx) :
    (dot_S256x256_S256x256_S256x256_1_1_0_0_n_n.lhsIdx i q 1).val = (q ⟨0, by decide⟩).val :=
  dot_S256x256_S256x256_S256x256_1_1_0_0_n_n.lhsIdx_val_of_single rfl i q
theorem rhs_pass_0 (i : S256x256.Idx) (q : dot_S256x256_S256x256_S256x256_1_1_0_0_n_n.contr.Idx) :
    (dot_S256x256_S256x256_S256x256_1_1_0_0_n_n.rhsIdx i q 0).val = (i 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl
theorem rhs_pass_1 (i : S256x256.Idx) (q : dot_S256x256_S256x256_S256x256_1_1_0_0_n_n.contr.Idx) :
    (dot_S256x256_S256x256_S256x256_1_1_0_0_n_n.rhsIdx i q 1).val = (q ⟨0, by decide⟩).val :=
  dot_S256x256_S256x256_S256x256_1_1_0_0_n_n.rhsIdx_val_of_single rfl i q

/-- A pass at `(p, q)`: the sum over the words `k` of the column block at `(p, k)` times the weight of word `(q, k)`. -/
theorem pass_apply (X : Vec Ideal S256x256 .bf16) (W : Vec Ideal S256x256 .i32) (s : BitVec 32) (p q : Fin 256) :
    pass (F := Ideal) X W s (ix2 p q) = ∑ k : Fin 256, X (ix2 p k) * Cert.Fields.weight (W (ix2 q k)) s := by
  unfold pass
  simp only [matmul]
  rw [Ideal.matmul_constant_zero_apply, ← Equiv.sum_comp (ValueIdx.contrEquiv1 dot_S256x256_S256x256_S256x256_1_1_0_0_n_n 256 rfl rfl).symm]
  refine Finset.sum_congr rfl fun k _ => ?_
  have hk := ValueIdx.contrEquiv1_symm_val dot_S256x256_S256x256_S256x256_1_1_0_0_n_n 256 rfl rfl k
  have el : dot_S256x256_S256x256_S256x256_1_1_0_0_n_n.lhsIdx (ix2 p q) ((ValueIdx.contrEquiv1 dot_S256x256_S256x256_S256x256_1_1_0_0_n_n 256 rfl rfl).symm k) = ix2 p k := funext fun a => Fin.ext (by
    match a with
    | ⟨0, _⟩ => exact lhs_pass_0 _ _
    | ⟨1, _⟩ => exact (lhs_pass_1 _ _).trans hk)
  have er : dot_S256x256_S256x256_S256x256_1_1_0_0_n_n.rhsIdx (ix2 p q) ((ValueIdx.contrEquiv1 dot_S256x256_S256x256_S256x256_1_1_0_0_n_n 256 rfl rfl).symm k) = ix2 q k := funext fun a => Fin.ext (by
    match a with
    | ⟨0, _⟩ => exact rhs_pass_0 _ _
    | ⟨1, _⟩ => exact (rhs_pass_1 _ _).trans hk)
  rw [el, er, shapeCast_self]
  refine congrArg (X (ix2 p k) * ·) ?_
  show (((IntOp.andi (IntOp.shrsi .vector (W (ix2 q k)) s) 3#32).toInt : ℝ) : EReal) - Ideal.ofBits .bf16 0x3F80#16 = _
  rw [Ideal.ofBits_one_bf16, shrsi_unit .vector .host]
  rfl

end Cert.KernelIdeal.Unpack

end
-- ==== Proof.Block.lean ====
/-
  What the body leaves in the output block, read at an index.

  At `(p, q)` of the 256 × 256 output block the body leaves
    ((acc · alpha_q + mu_q · xsum_p) + 2 · lora) + bias_q,
  where `acc` is the zero word plus, over the sixteen fields `j` and the 256 words `k` of packed row `q`, the staged
  activation at column `256·j + k` of row `p` times the weight in field `j` of word `k`, and `lora` is the sum over the
  sixteen ranks `r` of the first factor at `(p, r)` times the second at `(r, q)`. Column block `j` of the staged
  activations is what the body loads at column offset `256·j`.
-/
import proofs.«401683_j34686155882823_2_alg».proof.Proof.Gen.KernelIdeal.Frame
import proofs.«401683_j34686155882823_2_alg».proof.Proof.Pass
import Idealize.ShloMosaic.Lib.ValueLayout

set_option maxRecDepth 16384

noncomputable section

namespace Cert.KernelIdeal.Unpack

open Cert.KernelIdeal Cert.KernelIdeal.Gen Idealize.ShloMosaic Idealize.ShloMosaic.TcCoe Idealize.ShloMosaic.ValueIdx

variable {F : FTy → Type} [FloatOps F]

/-- The sixteen passes accumulated onto the zero block, column block `j` of `x0` against field `j` of `W`. -/
def acc (x0 : Vec F S256x4096 .bf16) (W : Vec F S256x256 .i32) : FVec F S256x256 .f32 :=
  (addf (addf (addf (addf (addf (addf (addf (addf (addf (addf (addf (addf (addf (addf (addf (addf (broadcast S256x256 (Scalar.ofBits .f32 0x00000000#32)) (pass (View.ld x0 r0_1) W 0#32)) (pass (View.ld x0 r0_2) W 2#32)) (pass (View.ld x0 r0_3) W 4#32)) (pass (View.ld x0 r0_4) W 6#32)) (pass (View.ld x0 r0_5) W 8#32)) (pass (View.ld x0 r0_6) W 10#32)) (pass (View.ld x0 r0_7) W 12#32)) (pass (View.ld x0 r0_8) W 14#32)) (pass (View.ld x0 r0_9) W 16#32)) (pass (View.ld x0 r0_10) W 18#32)) (pass (View.ld x0 r0_11) W 20#32)) (pass (View.ld x0 r0_12) W 22#32)) (pass (View.ld x0 r0_13) W 24#32)) (pass (View.ld x0 r0_14) W 26#32)) (pass (View.ld x0 r0_15) W 28#32)) (pass (View.ld x0 r0_16) W 30#32))

/-- The low-rank product as the body spells it. -/
def lora (L : Vec F S256x16 .f32) (R : Vec F S16x256 .f32) : FVec F S256x256 .f32 :=
  matmul dot_S256x16_S16x256_S256x256_1_0_0_1_n_n none (shapeCast S256x16 L shapeCasts_S256x16_S256x16) (shapeCast S16x256 R shapeCasts_S16x256_S16x256)
    (constant S256x256 .f32 0x00000000#32)

/-- A one-row matrix copied down the 256 rows of the block. -/
def rowOver (v : Vec F S1x256 .f32) : FVec F S256x256 .f32 :=
  broadcastTo S256x256 (shapeCast S1x256 v shapeCasts_S1x256_S1x256) broadcasts_S1x256_S256x256

/-- A one-column matrix copied across the 256 columns of the block. -/
def colOver (v : Vec F S256x1 .f32) : FVec F S256x256 .f32 :=
  broadcastTo S256x256 (shapeCast S256x1 v shapeCasts_S256x1_S256x1) broadcasts_S256x1_S256x256

/-- The body's one store, with its payloads' nesting written out as one term. -/
theorem out_eq (x0 : Vec F S256x4096 .bf16) (x1 : Vec F S256x256 .i32) (x2 x3 x4 : Vec F S1x256 .f32)
    (x5 : Vec F S256x16 .f32) (x6 : Vec F S16x256 .f32) (x7 : Vec F S256x1 .f32) :
    out0_8 x0 x1 x2 x3 x4 x5 x6 x7 = View.canon [⟨r0_0,
      addf (addf (addf
        (mulf (acc x0 (View.ld x1 r0_0))
          (rowOver (View.ld x2 r0_19)))
        (mulf (rowOver (View.ld x3 r0_19))
          (colOver (View.ld x7 r0_20))))
        (mulf (broadcast S256x256 (Scalar.ofBits .f32 0x40000000#32)) (lora (View.ld x5 r0_17) (View.ld x6 r0_18))))
        (rowOver (View.ld x4 r0_19))⟩] := rfl

/-- A column offset of a block load stays inside the staged row. -/
theorem col_lt {off : ℕ} (inb : ∀ a, (![0, off] : Fin 2 → ℕ) a + S256x256.size a ≤ S256x4096.size a) (k : Fin 256) :
    off + k.val < 4096 := by
  have h : off + 256 ≤ 4096 := inb 1
  omega

/-- A 256 × 256 block loaded at column offset `off`, at `(p, k)`, is the staged array at `(p, off + k)`. -/
theorem ld_col (x0 : Vec Ideal S256x4096 .bf16) (off : ℕ)
    (inb : ∀ a, (![0, off] : Fin 2 → ℕ) a + S256x256.size a ≤ S256x4096.size a) (p k : Fin 256) :
    View.ld x0 (Rect.unit (s := S256x4096) ![0, off] S256x256.size inb) (ix2 p k) = x0 (ix2 p ⟨off + k.val, col_lt inb k⟩) :=
  congrArg x0 (funext fun a => Fin.ext (by
    match a with
    | ⟨0, _⟩ => show 0 + 1 * p.val = p.val; omega
    | ⟨1, _⟩ => show off + 1 * k.val = off + k.val; omega))

/-- A pass against the column block loaded at offset `off`, at `(p, q)`: the sum over the words `k` of the staged
    array at `(p, off + k)` times the weight of word `(q, k)`. -/
theorem pass_col_apply (x0 : Vec Ideal S256x4096 .bf16) (off : ℕ)
    (inb : ∀ a, (![0, off] : Fin 2 → ℕ) a + S256x256.size a ≤ S256x4096.size a)
    (W : Vec Ideal S256x256 .i32) (s : BitVec 32) (p q : Fin 256) :
    pass (F := Ideal) (View.ld x0 (Rect.unit (s := S256x4096) ![0, off] S256x256.size inb)) W s (ix2 p q)
      = ∑ k : Fin 256, x0 (ix2 p ⟨off + k.val, col_lt inb k⟩) * Cert.Fields.weight (W (ix2 q k)) s := by
  rw [pass_apply]
  exact Finset.sum_congr rfl fun k _ => congrArg (· * Cert.Fields.weight (W (ix2 q k)) s) (ld_col x0 off inb p k)

/-- The accumulated passes at `(p, q)`: the zero word plus the double sum over fields and words. -/
theorem acc_apply (x0 : Vec Ideal S256x4096 .bf16) (W : Vec Ideal S256x256 .i32) (p q : Fin 256) :
    acc (F := Ideal) x0 W (ix2 p q) = Ideal.ofBits .f32 0x00000000#32
      + ∑ j : Fin 16, ∑ k : Fin 256, x0 (ix2 p ⟨256 * j.val + k.val, by omega⟩)
          * Cert.Fields.weight (W (ix2 q k)) (BitVec.ofNat 32 (2 * j.val)) := by
  unfold acc
  simp only [addf_apply, broadcast_apply, pass_col_apply]
  exact Cert.Fields.add_sixteen _ (fun j : Fin 16 => ∑ k : Fin 256, x0 (ix2 p ⟨256 * j.val + k.val, by omega⟩)
    * Cert.Fields.weight (W (ix2 q k)) (BitVec.ofNat 32 (2 * j.val)))

theorem lhs_lora_0 (i : S256x256.Idx) (q : dot_S256x16_S16x256_S256x256_1_0_0_1_n_n.contr.Idx) :
    (dot_S256x16_S16x256_S256x256_1_0_0_1_n_n.lhsIdx i q 0).val = (i 0).val := by
  unfold DotDims.lhsIdx
  rw [dif_neg (show ¬(0 : Fin S256x16.rank) ∈ dot_S256x16_S16x256_S256x256_1_0_0_1_n_n.lhsBatch by decide), dif_pos (show (0 : Fin S256x16.rank) ∈ dot_S256x16_S16x256_S256x256_1_0_0_1_n_n.lhsNonContracting by decide)]
  rfl
theorem lhs_lora_1 (i : S256x256.Idx) (q : dot_S256x16_S16x256_S256x256_1_0_0_1_n_n.contr.Idx) :
    (dot_S256x16_S16x256_S256x256_1_0_0_1_n_n.lhsIdx i q 1).val = (q ⟨0, by decide⟩).val :=
  dot_S256x16_S16x256_S256x256_1_0_0_1_n_n.lhsIdx_val_of_single rfl i q
theorem rhs_lora_0 (i : S256x256.Idx) (q : dot_S256x16_S16x256_S256x256_1_0_0_1_n_n.contr.Idx) :
    (dot_S256x16_S16x256_S256x256_1_0_0_1_n_n.rhsIdx i q 0).val = (q ⟨0, by decide⟩).val :=
  dot_S256x16_S16x256_S256x256_1_0_0_1_n_n.rhsIdx_val_of_single rfl i q
theorem rhs_lora_1 (i : S256x256.Idx) (q : dot_S256x16_S16x256_S256x256_1_0_0_1_n_n.contr.Idx) :
    (dot_S256x16_S16x256_S256x256_1_0_0_1_n_n.rhsIdx i q 1).val = (i 1).val := by
  unfold DotDims.rhsIdx
  rw [dif_neg (show ¬(1 : Fin S16x256.rank) ∈ dot_S256x16_S16x256_S256x256_1_0_0_1_n_n.rhsBatch by decide), dif_pos (show (1 : Fin S16x256.rank) ∈ dot_S256x16_S16x256_S256x256_1_0_0_1_n_n.rhsNonContracting by decide)]
  rfl

/-- The low-rank product at `(p, q)`: the sum over the sixteen ranks. -/
theorem lora_apply (L : Vec Ideal S256x16 .f32) (R : Vec Ideal S16x256 .f32) (p q : Fin 256) :
    lora (F := Ideal) L R (ix2 p q) = ∑ r : Fin 16, L (ix2 p r) * R (ix2 r q) := by
  unfold lora
  simp only [matmul]
  rw [Ideal.matmul_constant_zero_apply, ← Equiv.sum_comp (ValueIdx.contrEquiv1 dot_S256x16_S16x256_S256x256_1_0_0_1_n_n 16 rfl rfl).symm]
  refine Finset.sum_congr rfl fun k _ => ?_
  have hk := ValueIdx.contrEquiv1_symm_val dot_S256x16_S16x256_S256x256_1_0_0_1_n_n 16 rfl rfl k
  have el : dot_S256x16_S16x256_S256x256_1_0_0_1_n_n.lhsIdx (ix2 p q) ((ValueIdx.contrEquiv1 dot_S256x16_S16x256_S256x256_1_0_0_1_n_n 16 rfl rfl).symm k) = ix2 p k := funext fun a => Fin.ext (by
    match a with
    | ⟨0, _⟩ => exact lhs_lora_0 _ _
    | ⟨1, _⟩ => exact (lhs_lora_1 _ _).trans hk)
  have er : dot_S256x16_S16x256_S256x256_1_0_0_1_n_n.rhsIdx (ix2 p q) ((ValueIdx.contrEquiv1 dot_S256x16_S16x256_S256x256_1_0_0_1_n_n 16 rfl rfl).symm k) = ix2 k q := funext fun a => Fin.ext (by
    match a with
    | ⟨0, _⟩ => exact (rhs_lora_0 _ _).trans hk
    | ⟨1, _⟩ => exact rhs_lora_1 _ _)
  rw [el, er, shapeCast_self, shapeCast_self]

/-- One column broadcast along the rows' lanes: `[a, 1] → [a, b]` at `(p, c)` reads the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowOver_apply (v : Vec Ideal S1x256 .f32) (p q : Fin 256) :
    rowOver (F := Ideal) v (ix2 p q) = v (ix2 (0 : Fin 1) q) := by
  unfold rowOver
  rw [broadcastTo_1b_ab_apply, shapeCast_self]

theorem colOver_apply (v : Vec Ideal S256x1 .f32) (p q : Fin 256) :
    colOver (F := Ideal) v (ix2 p q) = v (ix2 p (0 : Fin 1)) := by
  unfold colOver
  rw [broadcastTo_a1_ab_apply, shapeCast_self]

/-- The output block at `(p, q)`. -/
theorem out_apply (x0 : Vec Ideal S256x4096 .bf16) (x1 : Vec Ideal S256x256 .i32) (x2 x3 x4 : Vec Ideal S1x256 .f32)
    (x5 : Vec Ideal S256x16 .f32) (x6 : Vec Ideal S16x256 .f32) (x7 : Vec Ideal S256x1 .f32) (p q : Fin 256) :
    out0_8 (F := Ideal) x0 x1 x2 x3 x4 x5 x6 x7 (ix2 p q) =
      (((Ideal.ofBits .f32 0x00000000#32
            + ∑ j : Fin 16, ∑ k : Fin 256, x0 (ix2 p ⟨256 * j.val + k.val, by omega⟩)
                * Cert.Fields.weight (x1 (ix2 q k)) (BitVec.ofNat 32 (2 * j.val))) * x2 (ix2 (0 : Fin 1) q)
          + x3 (ix2 (0 : Fin 1) q) * x7 (ix2 p (0 : Fin 1)))
        + Ideal.ofBits .f32 0x40000000#32 * ∑ r : Fin 16, x5 (ix2 p r) * x6 (ix2 r q))
      + x4 (ix2 (0 : Fin 1) q) := by
  have hz : (![0, 0] : Fin 2 → ℕ) = fun _ => 0 := funext fun a => by
    match a with
    | ⟨0, _⟩ => rfl
    | ⟨1, _⟩ => rfl
  rw [out_eq, View.canon_unit_zero hz]
  simp only [View.ld_unit_zero (S := S256x256) hz, View.ld_unit_zero (S := S1x256) hz, View.ld_unit_zero (S := S256x16) hz,
    View.ld_unit_zero (S := S16x256) hz, View.ld_unit_zero (S := S256x1) hz]
  simp only [addf_apply, mulf_apply, broadcast_apply, acc_apply, lora_apply, rowOver_apply, colOver_apply]
  rfl

end Cert.KernelIdeal.Unpack

end
-- ==== Proof.Staged.lean ====
/-
  What the region finds in the arrays it stages, as functions of the program's arguments.

  Before the region the program sums each row of the activations `x`, multiplies `x` by the transpose of the first
  low-rank factor, lays `x` out again so that column `256·j + k` of the staged copy is column `16·k + j` of `x`
  (the `j`-th of every group of sixteen columns, groups in order), turns three vectors into one-row matrices and
  transposes the second low-rank factor. Nothing here rounds at the exact values: a change of float format is the
  identity.
-/
import proofs.«401683_j34686155882823_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays by name, at their literal types -/

/-- The program's arguments on core `c`. -/
abbrev argX (c : Dev nD) : FVec Ideal S256x4096 .f32 := m ((c : Thread nD τ).loc main_arg0)
abbrev argW (c : Dev nD) : IVec S11008x256 32 := m ((c : Thread nD τ).loc main_arg1)
abbrev argAlpha (c : Dev nD) : FVec Ideal S11008 .f32 := m ((c : Thread nD τ).loc main_arg2)
abbrev argMu (c : Dev nD) : FVec Ideal S11008 .f32 := m ((c : Thread nD τ).loc main_arg3)
abbrev argBias (c : Dev nD) : FVec Ideal S11008 .f32 := m ((c : Thread nD τ).loc main_arg4)
abbrev argA (c : Dev nD) : FVec Ideal S16x4096 .f32 := m ((c : Thread nD τ).loc main_arg5)
abbrev argB (c : Dev nD) : FVec Ideal S11008x16 .f32 := m ((c : Thread nD τ).loc main_arg6)

/-- The arrays the region stages, as it finds them. -/
abbrev stX (c : Dev nD) : FVec Ideal S256x4096 .bf16 := V m c main_v6
abbrev stW (c : Dev nD) : IVec S11008x256 32 := V m c main_arg1
abbrev stAlpha (c : Dev nD) : FVec Ideal S1x11008 .f32 := V m c main_v7
abbrev stMu (c : Dev nD) : FVec Ideal S1x11008 .f32 := V m c main_v8
abbrev stBias (c : Dev nD) : FVec Ideal S1x11008 .f32 := V m c main_v9
abbrev stMid (c : Dev nD) : FVec Ideal S256x16 .f32 := V m c main_v2
abbrev stB (c : Dev nD) : FVec Ideal S16x11008 .f32 := V m c main_v10
abbrev stSum (c : Dev nD) : FVec Ideal S256x1 .f32 := V m c main_v1

theorem stW_eq (c : Dev nD) : stW m c = argW m c := V_main_arg1 m c

/-! ## The layout of the staged activations -/

/-- Reshape `[256, 4096] → [256, 256, 16]`, swap the last two axes, reshape back: column `256·j + k` of the
    result is column `16·k + j` of the operand. -/
theorem relaid_apply {α : Type} (x : (⟨2, ![256, 4096]⟩ : Shape).Idx → α)
    (h1 : (⟨2, ![256, 4096]⟩ : Shape).ShapeCasts ⟨3, ![256, 256, 16]⟩)
    (h2 : (⟨3, ![256, 256, 16]⟩ : Shape).Transposes [0, 2, 1] ⟨3, ![256, 16, 256]⟩)
    (h3 : (⟨3, ![256, 16, 256]⟩ : Shape).ShapeCasts ⟨2, ![256, 4096]⟩)
    (p : Fin 256) (j : Fin 16) (k : Fin 256) :
    shapeCast ⟨2, ![256, 4096]⟩ (transpose ⟨3, ![256, 16, 256]⟩ [0, 2, 1] (shapeCast ⟨3, ![256, 256, 16]⟩ x h1) h2) h3
        (ix2 p ⟨256 * j.val + k.val, by omega⟩)
      = x (ix2 p ⟨16 * k.val + j.val, by omega⟩) := by
  rw [shapeCast_apply _ h3 (ix2 p ⟨256 * j.val + k.val, by omega⟩) (ix3 p j k) (by
    rw [Shape.rowMajor_val_three, Shape.rowMajor_val_two]
    show (p.val * 16 + j.val) * 256 + k.val = p.val * 4096 + (256 * j.val + k.val)
    omega)]
  rw [transpose_ix3_021_apply]
  exact shapeCast_apply _ h1 (ix3 p k j) (ix2 p ⟨16 * k.val + j.val, by omega⟩) (by
    rw [Shape.rowMajor_val_two, Shape.rowMajor_val_three]
    show p.val * 4096 + (16 * k.val + j.val) = (p.val * 256 + k.val) * 16 + j.val
    omega)

/-- The staged activations: the program's `x`, laid out again and read in the narrower float format. -/
theorem stX_eq (c : Dev nD) : stX m c
    = truncf (F := Ideal) .bf16 (shapeCast S256x4096 (transpose S256x16x256 [0, 2, 1]
        (shapeCast S256x256x16 (argX m c) shapeCasts_S256x4096_S256x256x16)
        transposes_S256x256x16_S256x16x256_0_2_1) shapeCasts_S256x16x256_S256x4096) bitsLt_bf16_f32 := by
  dsimp only [stX, argX, V, hostOps0]; after_results <;> rfl

/-- Column `256·j + k` of the staged activations is column `16·k + j` of `x`. -/
theorem stX_apply (c : Dev nD) (p : Fin 256) (j : Fin 16) (k : Fin 256) :
    stX m c (ix2 p ⟨256 * j.val + k.val, by omega⟩) = argX m c (ix2 p ⟨16 * k.val + j.val, by omega⟩) := by
  rw [stX_eq]
  exact relaid_apply (argX m c) shapeCasts_S256x4096_S256x256x16
    transposes_S256x256x16_S256x16x256_0_2_1 shapeCasts_S256x16x256_S256x4096 p j k

/-! ## The three rows and the transposed factor -/

theorem stAlpha_eq (c : Dev nD) : stAlpha m c = shapeCast S1x11008 (argAlpha m c) shapeCasts_S11008_S1x11008 := by
  dsimp only [stAlpha, argAlpha, V, hostOps0]; after_results <;> rfl
theorem stMu_eq (c : Dev nD) : stMu m c = shapeCast S1x11008 (argMu m c) shapeCasts_S11008_S1x11008 := by
  dsimp only [stMu, argMu, V, hostOps0]; after_results <;> rfl
theorem stBias_eq (c : Dev nD) : stBias m c = shapeCast S1x11008 (argBias m c) shapeCasts_S11008_S1x11008 := by
  dsimp only [stBias, argBias, V, hostOps0]; after_results <;> rfl
theorem stB_eq (c : Dev nD) : stB m c = transpose S16x11008 [1, 0] (argB m c) transposes_S11008x16_S16x11008_1_0 := by
  dsimp only [stB, argB, V, hostOps0]; after_results <;> rfl

theorem stAlpha_apply (c : Dev nD) (n : Fin 11008) : stAlpha m c (ix2 (0 : Fin 1) n) = argAlpha m c (ix1 n) :=
  (congrFun (stAlpha_eq m c) _).trans (shapeCast_a_1a_apply (argAlpha m c) shapeCasts_S11008_S1x11008 (0 : Fin 1) n)
theorem stMu_apply (c : Dev nD) (n : Fin 11008) : stMu m c (ix2 (0 : Fin 1) n) = argMu m c (ix1 n) :=
  (congrFun (stMu_eq m c) _).trans (shapeCast_a_1a_apply (argMu m c) shapeCasts_S11008_S1x11008 (0 : Fin 1) n)
theorem stBias_apply (c : Dev nD) (n : Fin 11008) : stBias m c (ix2 (0 : Fin 1) n) = argBias m c (ix1 n) :=
  (congrFun (stBias_eq m c) _).trans (shapeCast_a_1a_apply (argBias m c) shapeCasts_S11008_S1x11008 (0 : Fin 1) n)
theorem stB_apply (c : Dev nD) (r : Fin 16) (n : Fin 11008) : stB m c (ix2 r n) = argB m c (ix2 n r) :=
  (congrFun (stB_eq m c) _).trans (transpose_ix2_apply (argB m c) transposes_S11008x16_S16x11008_1_0 r n)

/-! ## The row sums -/

theorem stSum_eq (c : Dev nD) : stSum m c
    = broadcastInDim S256x1 ![0] bcast_S256_S256x1_0
        (Host.reduceAdd (argX m c) (constant (F := Ideal) S_ .f32 0x00000000#32) reducesTo_S256x4096_S256_d1 h_S_) := by
  dsimp only [stSum, argX, V, hostOps0]; after_results <;> rfl

/-- The staged column of row sums at `(p, 0)`: the zero word plus the sum of row `p` of `x`. -/
theorem stSum_apply (c : Dev nD) (p : Fin 256) :
    stSum m c (ix2 p (0 : Fin 1)) = Ideal.ofBits .f32 0x00000000#32 + ∑ k : Fin 4096, argX m c (ix2 p k) := by
  rw [stSum_eq]
  rw [broadcastInDim_apply _ bcast_S256_S256x1_0 _ (ix2 p (0 : Fin 1)) (ix1 p) (fun a => by
    match a with
    | ⟨0, _⟩ => show p.val = if (256 : Nat) = 1 then 0 else p.val; rw [if_neg (by decide)])]
  simp only [Host.reduceAdd, Ideal.hostReduceAdd_def]
  rw [Ideal.hostReduceAdd_single reducesTo_S256x4096_S256_d1 (by decide)]
  refine congrArg (_ + ·) (Finset.sum_congr rfl fun k _ => ?_)
  exact congrArg (argX m c) (funext fun a => Fin.ext (by match a with | ⟨0, _⟩ => rfl | ⟨1, _⟩ => rfl))

/-! ## The first low-rank product -/

theorem stMid_eq (c : Dev nD) : stMid m c = Host.dotGeneral (F := Ideal) dot_S256x4096_S16x4096_S256x16_1_1_0_0_n_n none (argX m c) (argA m c) := by
  dsimp only [stMid, argX, argA, V, hostOps0]; after_results <;> rfl

theorem lhs_mid_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
theorem lhs_mid_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
theorem rhs_mid_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
theorem rhs_mid_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q

/-- The staged product at `(p, r)`: row `p` of `x` against row `r` of the first factor. -/
theorem stMid_apply (c : Dev nD) (p : Fin 256) (r : Fin 16) :
    stMid m c (ix2 p r) = ∑ i : Fin 4096, argX m c (ix2 p i) * argA m c (ix2 r i) := by
  rw [stMid_eq]
  simp only [Host.dotGeneral]
  rw [Ideal.dotGeneral_apply, ← Equiv.sum_comp (ValueIdx.contrEquiv1 dot_S256x4096_S16x4096_S256x16_1_1_0_0_n_n 4096 rfl rfl).symm]
  refine Finset.sum_congr rfl fun k _ => ?_
  have hk := ValueIdx.contrEquiv1_symm_val dot_S256x4096_S16x4096_S256x16_1_1_0_0_n_n 4096 rfl rfl k
  have el : dot_S256x4096_S16x4096_S256x16_1_1_0_0_n_n.lhsIdx (ix2 p r) ((ValueIdx.contrEquiv1 dot_S256x4096_S16x4096_S256x16_1_1_0_0_n_n 4096 rfl rfl).symm k) = ix2 p k := funext fun a => Fin.ext (by
    match a with
    | ⟨0, _⟩ => exact lhs_mid_0 _ _
    | ⟨1, _⟩ => exact (lhs_mid_1 _ _).trans hk)
  have er : dot_S256x4096_S16x4096_S256x16_1_1_0_0_n_n.rhsIdx (ix2 p r) ((ValueIdx.contrEquiv1 dot_S256x4096_S16x4096_S256x16_1_1_0_0_n_n 4096 rfl rfl).symm k) = ix2 r k := funext fun a => Fin.ext (by
    match a with
    | ⟨0, _⟩ => exact rhs_mid_0 _ _
    | ⟨1, _⟩ => exact (rhs_mid_1 _ _).trans hk)
  rw [el, er]

end Cert.KernelIdeal.Staged

end
-- ==== Proof.Spec.lean ====
/-
  The layer's result as one function of its arguments.

  With `x` the 256 × 4096 activations, `w` the 11008 × 256 packed words (sixteen two-bit fields each, the
  weight of input position `i` of output row `n` in field `i mod 16` of word `i / 16` of row `n`), `alpha`, `mu`,
  `bias` vectors over the 11008 outputs and `A` (16 × 4096), `B` (11008 × 16) the low-rank factors, entry
  `(p, n)` of the result is
      ((∑ᵢ x(p,i) · weight(n,i)) · alpha(n) + mu(n) · (0 + ∑ᵢ x(p,i))) + 2 · ∑ᵣ (∑ᵢ x(p,i) · A(r,i)) · B(n,r)  + bias(n)
  on the extended reals, every sum over all 4096 positions (all 16 ranks). The words `0` and `2` are kept as the
  float patterns both programs spell them with.
-/
import proofs.«401683_j34686155882823_2_alg».proof.Proof.Fields
import Idealize.ShloMosaic.PureOps.Ideal
import Idealize.ShloMosaic.Lib.ValueIdx
import Idealize.ShloMosaic.Lib.ValueIdxRank1

noncomputable section

namespace Cert.Spec

open Idealize.ShloMosaic Idealize.ShloMosaic.ValueIdx

/-- The ternary contraction: row `p` of `x` against the 4096 weights of output row `n`, unpacked from its 256 words. -/
def ternary (x : FVec Ideal ⟨2, ![256, 4096]⟩ .f32) (w : IVec ⟨2, ![11008, 256]⟩ 32) (p : Fin 256) (n : Fin 11008) : EReal :=
  ∑ i : Fin 4096, x (ix2 p i) * Cert.Fields.weight (w (ix2 n ⟨i.val / 16, by omega⟩)) (BitVec.ofNat 32 (i.val % 16) * 2#32)

/-- The sum of row `p` of `x`, from the zero word. -/
def rowSum (x : FVec Ideal ⟨2, ![256, 4096]⟩ .f32) (p : Fin 256) : EReal :=
  Ideal.ofBits .f32 0x00000000#32 + ∑ i : Fin 4096, x (ix2 p i)

/-- The low-rank correction at `(p, n)`, before its scale. -/
def lowRank (x : FVec Ideal ⟨2, ![256, 4096]⟩ .f32) (A : FVec Ideal ⟨2, ![16, 4096]⟩ .f32)
    (B : FVec Ideal ⟨2, ![11008, 16]⟩ .f32) (p : Fin 256) (n : Fin 11008) : EReal :=
  ∑ r : Fin 16, (∑ i : Fin 4096, x (ix2 p i) * A (ix2 r i)) * B (ix2 n r)

/-- The layer's result. -/
def result (x : FVec Ideal ⟨2, ![256, 4096]⟩ .f32) (w : IVec ⟨2, ![11008, 256]⟩ 32)
    (alpha mu bias : FVec Ideal ⟨1, ![11008]⟩ .f32) (A : FVec Ideal ⟨2, ![16, 4096]⟩ .f32)
    (B : FVec Ideal ⟨2, ![11008, 16]⟩ .f32) : FVec Ideal ⟨2, ![256, 11008]⟩ .f32 := fun i =>
  ((ternary x w (i 0) (i 1) * alpha (ix1 (i 1)) + mu (ix1 (i 1)) * rowSum x (i 0))
      + Ideal.ofBits .f32 0x40000000#32 * lowRank x A B (i 0) (i 1))
    + bias (ix1 (i 1))

theorem result_apply (x : FVec Ideal ⟨2, ![256, 4096]⟩ .f32) (w : IVec ⟨2, ![11008, 256]⟩ 32)
    (alpha mu bias : FVec Ideal ⟨1, ![11008]⟩ .f32) (A : FVec Ideal ⟨2, ![16, 4096]⟩ .f32)
    (B : FVec Ideal ⟨2, ![11008, 16]⟩ .f32) (p : Fin 256) (n : Fin 11008) :
    result x w alpha mu bias A B (ix2 p n)
      = ((ternary x w p n * alpha (ix1 n) + mu (ix1 n) * rowSum x p)
          + Ideal.ofBits .f32 0x40000000#32 * lowRank x A B p n) + bias (ix1 n) := rfl

/-- The ternary contraction summed field by field: field `j` of word `k` of row `n` weighs position `16·k + j`. -/
theorem ternary_by_field (x : FVec Ideal ⟨2, ![256, 4096]⟩ .f32) (w : IVec ⟨2, ![11008, 256]⟩ 32) (p : Fin 256) (n : Fin 11008) :
    ternary x w p n = ∑ j : Fin 16, ∑ k : Fin 256, x (ix2 p ⟨16 * k.val + j.val, by omega⟩)
        * Cert.Fields.weight (w (ix2 n k)) (BitVec.ofNat 32 (2 * j.val)) := by
  unfold ternary
  rw [Cert.Fields.sum_by_field]
  refine Finset.sum_congr rfl fun j _ => Finset.sum_congr rfl fun k _ => ?_
  have hk : (16 * k.val + j.val) / 16 = k.val := by omega
  have hj : (16 * k.val + j.val) % 16 = j.val := by omega
  have hw : (⟨(16 * k.val + j.val) / 16, by omega⟩ : Fin 256) = k := Fin.ext hk
  show x _ * Cert.Fields.weight (w (ix2 n ⟨(16 * k.val + j.val) / 16, _⟩)) (BitVec.ofNat 32 ((16 * k.val + j.val) % 16) * 2#32) = _
  rw [hw, hj, Cert.Fields.shift_word]

end Cert.Spec

end
-- ==== Proof.Final.lean ====
/-
  The array the kernel leaves, as the layer's function of its arguments.

  The grid has 43 points; point `t` stages rows `256·t … 256·t + 255` of the packed words (and the matching 256
  entries of `alpha`, `mu`, `bias` and columns of the transposed second factor), the whole of the laid-out
  activations, of the first low-rank product and of the row sums, and writes back columns `256·t … 256·t + 255` of
  the result. Entry `(p, q)` of the block it writes back is entry `(p, 256·t + q)` of the specification: the
  sixteen passes sum the ternary contraction field by field, a zero word added in front changes nothing, and the
  staged arrays read back as the arguments. The 43 column blocks tile the 11008 columns, so the array after the
  run is the specification's result.
-/
import proofs.«401683_j34686155882823_2_alg».proof.Proof.Gen.KernelIdeal.Value
import proofs.«401683_j34686155882823_2_alg».proof.Proof.Block
import proofs.«401683_j34686155882823_2_alg».proof.Proof.Staged
import proofs.«401683_j34686155882823_2_alg».proof.Proof.Spec

set_option maxRecDepth 16384

noncomputable section

namespace Cert.KernelIdeal.Final

open Cert.KernelIdeal Cert.KernelIdeal.Gen Cert.KernelIdeal.Value Cert.KernelIdeal.Staged Cert.KernelIdeal.Unpack
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's result of the arguments on core `c`. -/
abbrev res (c : Dev nD) : FVec Ideal S256x11008 .f32 :=
  Cert.Spec.result (argX m c) (argW m c) (argAlpha m c) (argMu m c) (argBias m c) (argA m c) (argB m c)

/-- The block indices of the nine windows at point `t`: the resident windows stay at block (0, 0); the packed words
    move down their rows with `t`; the three rows, the transposed factor and the result move along their columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- Column `q` of block `t` is a column of the array. -/
theorem col_lt (t : Fin cfg0.N) (q : Fin 256) : 256 * t.val + q.val < 11008 := by
  have ht : t.val < 43 := lt_of_lt_of_eq t.isLt N_0
  omega

/-! ## The staged blocks at point `t`, by name and at their literal types -/

abbrev blkX (c : Dev nD) (t : Fin cfg0.N) : FVec Ideal S256x4096 .bf16 := iblk m c 0 t
abbrev blkW (c : Dev nD) (t : Fin cfg0.N) : IVec S256x256 32 := iblk m c 1 t
abbrev blkAlpha (c : Dev nD) (t : Fin cfg0.N) : FVec Ideal S1x256 .f32 := iblk m c 2 t
abbrev blkMu (c : Dev nD) (t : Fin cfg0.N) : FVec Ideal S1x256 .f32 := iblk m c 3 t
abbrev blkBias (c : Dev nD) (t : Fin cfg0.N) : FVec Ideal S1x256 .f32 := iblk m c 4 t
abbrev blkMid (c : Dev nD) (t : Fin cfg0.N) : FVec Ideal S256x16 .f32 := iblk m c 5 t
abbrev blkB (c : Dev nD) (t : Fin cfg0.N) : FVec Ideal S16x256 .f32 := iblk m c 6 t
abbrev blkSum (c : Dev nD) (t : Fin cfg0.N) : FVec Ideal S256x1 .f32 := iblk m c 7 t

theorem blkX_apply (c : Dev nD) (t : Fin cfg0.N) (p : Fin 256) (col : Fin 4096) :
    blkX m c t (ix2 p col) = stX m c (ix2 p col) := by
  obtain ⟨e00, e01, e10, e11, e20, e21, e30, e31, e40, e41, e50, e51, e60, e61, e70, e71, e80, e81⟩ := idx_facts t
  have ht : t.val < 43 := lt_of_lt_of_eq t.isLt N_0
  show stX m c (((cfg0.win 0).blk t).view.emb (ix2 p col)) = _
  refine congrArg (stX m c) (funext fun a => Fin.ext ?_)
  match a with
  | ⟨0, _⟩ => show win0_0.index t (0 : Fin 2) * 256 + 1 * p.val = p.val; omega
  | ⟨1, _⟩ => show win0_0.index t (1 : Fin 2) * 4096 + 1 * col.val = col.val; omega

theorem blkW_apply (c : Dev nD) (t : Fin cfg0.N) (q k : Fin 256) :
    blkW m c t (ix2 q k) = stW m c (ix2 (⟨256 * t.val + q.val, col_lt t q⟩ : Fin 11008) k) := by
  obtain ⟨e00, e01, e10, e11, e20, e21, e30, e31, e40, e41, e50, e51, e60, e61, e70, e71, e80, e81⟩ := idx_facts t
  have ht : t.val < 43 := lt_of_lt_of_eq t.isLt N_0
  show stW m c (((cfg0.win 1).blk t).view.emb (ix2 q k)) = _
  refine congrArg (stW m c) (funext fun a => Fin.ext ?_)
  match a with
  | ⟨0, _⟩ => show win0_1.index t (0 : Fin 2) * 256 + 1 * q.val = 256 * t.val + q.val; omega
  | ⟨1, _⟩ => show win0_1.index t (1 : Fin 2) * 256 + 1 * k.val = k.val; omega

theorem blkAlpha_apply (c : Dev nD) (t : Fin cfg0.N) (q : Fin 256) :
    blkAlpha m c t (ix2 (0 : Fin 1) q) = stAlpha m c (ix2 (0 : Fin 1) (⟨256 * t.val + q.val, col_lt t q⟩ : Fin 11008)) := by
  obtain ⟨e00, e01, e10, e11, e20, e21, e30, e31, e40, e41, e50, e51, e60, e61, e70, e71, e80, e81⟩ := idx_facts t
  have ht : t.val < 43 := lt_of_lt_of_eq t.isLt N_0
  show stAlpha m c (((cfg0.win 2).blk t).view.emb (ix2 (0 : Fin 1) q)) = _
  refine congrArg (stAlpha m c) (funext fun a => Fin.ext ?_)
  match a with
  | ⟨0, _⟩ => show win0_2.index t (0 : Fin 2) * 1 + 1 * 0 = 0; omega
  | ⟨1, _⟩ => show win0_2.index t (1 : Fin 2) * 256 + 1 * q.val = 256 * t.val + q.val; omega

theorem blkMu_apply (c : Dev nD) (t : Fin cfg0.N) (q : Fin 256) :
    blkMu m c t (ix2 (0 : Fin 1) q) = stMu m c (ix2 (0 : Fin 1) (⟨256 * t.val + q.val, col_lt t q⟩ : Fin 11008)) := by
  obtain ⟨e00, e01, e10, e11, e20, e21, e30, e31, e40, e41, e50, e51, e60, e61, e70, e71, e80, e81⟩ := idx_facts t
  have ht : t.val < 43 := lt_of_lt_of_eq t.isLt N_0
  show stMu m c (((cfg0.win 3).blk t).view.emb (ix2 (0 : Fin 1) q)) = _
  refine congrArg (stMu m c) (funext fun a => Fin.ext ?_)
  match a with
  | ⟨0, _⟩ => show win0_3.index t (0 : Fin 2) * 1 + 1 * 0 = 0; omega
  | ⟨1, _⟩ => show win0_3.index t (1 : Fin 2) * 256 + 1 * q.val = 256 * t.val + q.val; omega

theorem blkBias_apply (c : Dev nD) (t : Fin cfg0.N) (q : Fin 256) :
    blkBias m c t (ix2 (0 : Fin 1) q) = stBias m c (ix2 (0 : Fin 1) (⟨256 * t.val + q.val, col_lt t q⟩ : Fin 11008)) := by
  obtain ⟨e00, e01, e10, e11, e20, e21, e30, e31, e40, e41, e50, e51, e60, e61, e70, e71, e80, e81⟩ := idx_facts t
  have ht : t.val < 43 := lt_of_lt_of_eq t.isLt N_0
  show stBias m c (((cfg0.win 4).blk t).view.emb (ix2 (0 : Fin 1) q)) = _
  refine congrArg (stBias m c) (funext fun a => Fin.ext ?_)
  match a with
  | ⟨0, _⟩ => show win0_4.index t (0 : Fin 2) * 1 + 1 * 0 = 0; omega
  | ⟨1, _⟩ => show win0_4.index t (1 : Fin 2) * 256 + 1 * q.val = 256 * t.val + q.val; omega

theorem blkMid_apply (c : Dev nD) (t : Fin cfg0.N) (p : Fin 256) (r : Fin 16) :
    blkMid m c t (ix2 p r) = stMid m c (ix2 p r) := by
  obtain ⟨e00, e01, e10, e11, e20, e21, e30, e31, e40, e41, e50, e51, e60, e61, e70, e71, e80, e81⟩ := idx_facts t
  have ht : t.val < 43 := lt_of_lt_of_eq t.isLt N_0
  show stMid m c (((cfg0.win 5).blk t).view.emb (ix2 p r)) = _
  refine congrArg (stMid m c) (funext fun a => Fin.ext ?_)
  match a with
  | ⟨0, _⟩ => show win0_5.index t (0 : Fin 2) * 256 + 1 * p.val = p.val; omega
  | ⟨1, _⟩ => show win0_5.index t (1 : Fin 2) * 16 + 1 * r.val = r.val; omega

theorem blkB_apply (c : Dev nD) (t : Fin cfg0.N) (r : Fin 16) (q : Fin 256) :
    blkB m c t (ix2 r q) = stB m c (ix2 r (⟨256 * t.val + q.val, col_lt t q⟩ : Fin 11008)) := by
  obtain ⟨e00, e01, e10, e11, e20, e21, e30, e31, e40, e41, e50, e51, e60, e61, e70, e71, e80, e81⟩ := idx_facts t
  have ht : t.val < 43 := lt_of_lt_of_eq t.isLt N_0
  show stB m c (((cfg0.win 6).blk t).view.emb (ix2 r q)) = _
  refine congrArg (stB m c) (funext fun a => Fin.ext ?_)
  match a with
  | ⟨0, _⟩ => show win0_6.index t (0 : Fin 2) * 16 + 1 * r.val = r.val; omega
  | ⟨1, _⟩ => show win0_6.index t (1 : Fin 2) * 256 + 1 * q.val = 256 * t.val + q.val; omega

theorem blkSum_apply (c : Dev nD) (t : Fin cfg0.N) (p : Fin 256) :
    blkSum m c t (ix2 p (0 : Fin 1)) = stSum m c (ix2 p (0 : Fin 1)) := by
  obtain ⟨e00, e01, e10, e11, e20, e21, e30, e31, e40, e41, e50, e51, e60, e61, e70, e71, e80, e81⟩ := idx_facts t
  have ht : t.val < 43 := lt_of_lt_of_eq t.isLt N_0
  show stSum m c (((cfg0.win 7).blk t).view.emb (ix2 p (0 : Fin 1))) = _
  refine congrArg (stSum m c) (funext fun a => Fin.ext ?_)
  match a with
  | ⟨0, _⟩ => show win0_7.index t (0 : Fin 2) * 256 + 1 * p.val = p.val; omega
  | ⟨1, _⟩ => show win0_7.index t (1 : Fin 2) * 1 + 1 * 0 = 0; omega

/-- Entry `(p, q)` of the block point `t` writes back sits at `(p, 256·t + q)` of the result array. -/
theorem emb_out (t : Fin cfg0.N) (p q : Fin 256) :
    ((cfg0.win 8).blk t).view.emb (ix2 p q) = ix2 p (⟨256 * t.val + q.val, col_lt t q⟩ : Fin 11008) := by
  obtain ⟨e00, e01, e10, e11, e20, e21, e30, e31, e40, e41, e50, e51, e60, e61, e70, e71, e80, e81⟩ := idx_facts t
  refine funext fun a => Fin.ext ?_
  match a with
  | ⟨0, _⟩ => show win0_8.index t (0 : Fin 2) * 256 + 1 * p.val = p.val; omega
  | ⟨1, _⟩ => show win0_8.index t (1 : Fin 2) * 256 + 1 * q.val = 256 * t.val + q.val; omega

/-! ## What point `t` writes back -/

/-- The sixteen passes over the staged blocks are the ternary contraction of the arguments, at output row `256·t + q`. -/
theorem passes_eq (c : Dev nD) (t : Fin cfg0.N) (p q : Fin 256) :
    Ideal.ofBits .f32 0x00000000#32
        + ∑ j : Fin 16, ∑ k : Fin 256, blkX m c t (ix2 p ⟨256 * j.val + k.val, by omega⟩)
            * Cert.Fields.weight (blkW m c t (ix2 q k)) (BitVec.ofNat 32 (2 * j.val))
      = Cert.Spec.ternary (argX m c) (argW m c) p ⟨256 * t.val + q.val, col_lt t q⟩ := by
  rw [Ideal.ofBits_zero_f32, zero_add, Cert.Spec.ternary_by_field]
  refine Finset.sum_congr rfl fun j _ => Finset.sum_congr rfl fun k _ => ?_
  rw [blkX_apply, stX_apply, blkW_apply, stW_eq]

/-- The low-rank product over the staged blocks is the low-rank correction of the arguments. -/
theorem lowRank_eq (c : Dev nD) (t : Fin cfg0.N) (p q : Fin 256) :
    ∑ r : Fin 16, blkMid m c t (ix2 p r) * blkB m c t (ix2 r q)
      = Cert.Spec.lowRank (argX m c) (argA m c) (argB m c) p ⟨256 * t.val + q.val, col_lt t q⟩ := by
  unfold Cert.Spec.lowRank
  refine Finset.sum_congr rfl fun r _ => ?_
  rw [blkMid_apply, stMid_apply, blkB_apply, stB_apply]

/-- WHAT POINT `t` WRITES BACK is block `t` of the specification's result. -/
theorem flushed_eq (c : Dev nD) (t : Fin cfg0.N) :
    (dats m 0 c).flushed 8 t = ((cfg0.win 8).blk t).view.read (Elt Ideal) (res m c) := by
  rw [flushed8]
  funext y
  obtain ⟨p, q, rfl⟩ : ∃ (p q : Fin 256), y = ix2 p q := ⟨y 0, y 1, eq_ix2 y⟩
  show out0_8 (F := Ideal) (blkX m c t) (blkW m c t) (blkAlpha m c t) (blkMu m c t) (blkBias m c t) (blkMid m c t) (blkB m c t) (blkSum m c t) (ix2 p q)
    = res m c (((cfg0.win 8).blk t).view.emb (ix2 p q))
  rw [emb_out]
  refine (out_apply (blkX m c t) (blkW m c t) (blkAlpha m c t) (blkMu m c t) (blkBias m c t) (blkMid m c t) (blkB m c t) (blkSum m c t) p q).trans ?_
  rw [passes_eq, lowRank_eq, blkAlpha_apply, blkMu_apply, blkBias_apply, blkSum_apply, stAlpha_apply, stMu_apply, stBias_apply, stSum_apply]
  exact (Cert.Spec.result_apply (argX m c) (argW m c) (argAlpha m c) (argMu m c) (argBias m c) (argA m c) (argB m c) p ⟨256 * t.val + q.val, col_lt t q⟩).symm

/-! ## The cover, and the array after the run -/

/-- An index of the result array is in point `t`'s block iff each coordinate is in the block's range on its axis. -/
theorem mem_blk (t : Fin cfg0.N) (i : S256x11008.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v11).slice (win0_8.rect t)).set ↔ _
  rw [View.set_slice_whole, Rect.mem_set_unit]
  exact Iff.rfl

/-- Every index of the result array is in some point's block: column `n` is in block `n / 256`. -/
theorem cover (i : S256x11008.Idx) : ∃ t : Fin cfg0.N, (cfg0.win 8).flush t = true ∧ i ∈ ((cfg0.win 8).blk t).view.set := by
  have hi0 : (i 0).val < 256 := (i 0).isLt
  have hi1 : (i 1).val < 11008 := (i 1).isLt
  have hN : cfg0.N = 43 := N_0
  refine ⟨⟨(i 1).val / 256, by rw [hN]; omega⟩, flush0_8 _, ?_⟩
  obtain ⟨e00, e01, e10, e11, e20, e21, e30, e31, e40, e41, e50, e51, e60, e61, e70, e71, e80, e81⟩ :=
    idx_facts ⟨(i 1).val / 256, by rw [hN]; omega⟩
  rw [mem_blk]
  intro a
  match a with
  | ⟨0, _⟩ =>
    show win0_8.index _ (0 : Fin 2) * 256 ≤ (i 0).val ∧ (i 0).val < win0_8.index _ (0 : Fin 2) * 256 + 256
    rw [e80]; omega
  | ⟨1, _⟩ =>
    show win0_8.index _ (1 : Fin 2) * 256 ≤ (i 1).val ∧ (i 1).val < win0_8.index _ (1 : Fin 2) * 256 + 256
    rw [e81]
    show (i 1).val / 256 * 256 ≤ (i 1).val ∧ (i 1).val < (i 1).val / 256 * 256 + 256
    omega

/-- THE ARRAY after the run is the specification's result of the arguments. -/
theorem final (c : Dev nD) : (dats m 0 c).arrAt 8 cfg0.N = res m c :=
  (dats m 0 c).arrAt_eq_of_cover 8 (res m c) (fun t _ => flushed_eq m c t) cover

/-- The frame run re-posted: the result array at the specification's result, the arguments unchanged. -/
theorem run : θ_run defs (onTc (τ := τ) (main (F := Ideal))) ⟨m, fun _ => 0, ρ⟩ fun r => ∀ c : Dev nD,
      r.2.mem ((c : Thread nD τ).loc main_v11) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Final

end
-- ==== Proof.RefValue.lean ====
/-
  The reference's result is the layer's function of its arguments.

  The reference unpacks every word into its sixteen fields along a new last axis (the shift of field `j` is `j · 2`),
  flattens that axis into the row (position `i` is field `i mod 16` of word `i / 16`), converts the field to a float and
  subtracts one, and contracts the rows of `x` against these weights; then it scales by `alpha`, adds `mu` times the row
  sums of `x`, adds twice the low-rank correction and adds `bias`. Read at an index, stage by stage, that is the
  specification's term.
-/
import proofs.«401683_j34686155882823_2_alg».proof.Proof.Gen.ReferenceIdeal.Read
import proofs.«401683_j34686155882823_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The reference's contraction at `(p, n)` is the ternary contraction of the specification. -/
theorem ternary_eq (x0 : (⟨S256x4096, .f32⟩ : BufTy).Contents (Elt Ideal)) (x1 : (⟨S11008x256, .i32⟩ : BufTy).Contents (Elt Ideal)) (p : Fin 256) (n : Fin 11008) :
    val_main_v14 (F := Ideal) x0 x1 (ix2 p n) = Cert.Spec.ternary x0 x1 p n := by
  rw [val_main_v14_apply]
  unfold Cert.Spec.ternary
  refine Finset.sum_congr rfl fun k _ => ?_
  have hl : lidx_main_v14 (ix2 p n) k = ix2 p k := funext fun a => Fin.ext (by match a with | ⟨0, _⟩ => rfl | ⟨1, _⟩ => rfl)
  rw [hl]
  refine congrArg (x0 (ix2 p k) * ·) ?_
  rw [val_main_v13_apply, val_main_v11_apply, val_main_v12_apply, val_main_cst_apply, val_main_v10_apply, val_main_v9_apply,
    val_main_v7_apply, val_main_v8_apply, val_main_c_0_apply, val_main_v5_apply, val_main_v3_apply, val_main_v6_apply,
    val_main_v4_apply, val_main_v2_apply, val_main_v0_apply, val_main_v1_apply, val_main_c_apply]
  have hw : idx_main_v3 (idx_main_v5 (idx_main_v10 (ridx_main_v14 (ix2 p n) k))) = ix2 n ⟨k.val / 16, by omega⟩ :=
    funext fun a => Fin.ext (by
      match a with
      | ⟨0, _⟩ => show (n.val * 4096 + k.val) / 4096 = n.val; omega
      | ⟨1, _⟩ => show (n.val * 4096 + k.val) / 16 % 256 = k.val / 16; omega)
  have hs : ((idx_main_v4 (idx_main_v6 (idx_main_v10 (ridx_main_v14 (ix2 p n) k)))) 0).val = k.val % 16 := by
    show (n.val * 4096 + k.val) % 16 = k.val % 16
    omega
  rw [hw, hs]
  show (((IntOp.andi (IntOp.shrsi .host (x1 (ix2 n ⟨k.val / 16, _⟩)) (BitVec.ofNat 32 (k.val % 16) * 2#32)) 3#32).toInt : ℝ) : EReal)
      - Ideal.ofBits .f32 0x3F800000#32 = _
  rw [Ideal.ofBits_one_f32]
  rfl

/-- The reference's result is the specification's function of its arguments. -/
theorem result_eq (x0 : (⟨S256x4096, .f32⟩ : BufTy).Contents (Elt Ideal)) (x1 : (⟨S11008x256, .i32⟩ : BufTy).Contents (Elt Ideal))
    (x2 x3 x4 : (⟨S11008, .f32⟩ : BufTy).Contents (Elt Ideal)) (x5 : (⟨S16x4096, .f32⟩ : BufTy).Contents (Elt Ideal)) (x6 : (⟨S11008x16, .f32⟩ : BufTy).Contents (Elt Ideal)) :
    val_main_v32 (F := Ideal) x0 x1 x2 x3 x4 x5 x6 = Cert.Spec.result x0 x1 x2 x3 x4 x5 x6 := by
  funext i
  obtain ⟨p, n, rfl⟩ : ∃ (p : Fin 256) (n : Fin 11008), i = ix2 p n := ⟨i 0, i 1, eq_ix2 i⟩
  rw [Cert.Spec.result_apply, val_main_v32_apply, val_main_v29_apply, val_main_v24_apply, val_main_v17_apply, ternary_eq,
    val_main_v23_apply, val_main_v28_apply]
  have h2 : val_main_v16 (F := Ideal) x2 (ix2 p n) = x2 (ix1 n) := by
    rw [val_main_v16_apply, val_main_v15_apply]
    exact congrArg x2 (funext fun a => Fin.ext (by match a with | ⟨0, _⟩ => rfl))
  have h3 : val_main_v21 (F := Ideal) x3 (ix2 p n) = x3 (ix1 n) := by
    rw [val_main_v21_apply, val_main_v20_apply]
    exact congrArg x3 (funext fun a => Fin.ext (by match a with | ⟨0, _⟩ => rfl))
  have h4 : val_main_v31 (F := Ideal) x4 (ix2 p n) = x4 (ix1 n) := by
    rw [val_main_v31_apply, val_main_v30_apply]
    exact congrArg x4 (funext fun a => Fin.ext (by match a with | ⟨0, _⟩ => rfl))
  have hr : val_main_v22 (F := Ideal) x0 (ix2 p n) = Cert.Spec.rowSum x0 p := by
    rw [val_main_v22_apply, val_main_v19_apply, val_main_v18_apply, val_main_cst_1_apply]
    unfold Cert.Spec.rowSum
    exact congrArg (Ideal.ofBits .f32 0x00000000#32 + ·) (Finset.sum_congr rfl fun k _ =>
      congrArg x0 (funext fun a => Fin.ext (by match a with | ⟨0, _⟩ => rfl | ⟨1, _⟩ => rfl)))
  have h27 : val_main_v27 (F := Ideal) (ix2 p n) = Ideal.ofBits .f32 0x40000000#32 := by
    rw [val_main_v27_apply, val_main_cst_2_apply]; rfl
  have hl : val_main_v26 (F := Ideal) x0 x5 x6 (ix2 p n) = Cert.Spec.lowRank x0 x5 x6 p n := by
    rw [val_main_v26_apply]
    unfold Cert.Spec.lowRank
    refine Finset.sum_congr rfl fun r _ => ?_
    rw [val_main_v25_apply]
    have e6 : ridx_main_v26 (ix2 p n) r = ix2 n r := funext fun a => Fin.ext (by match a with | ⟨0, _⟩ => rfl | ⟨1, _⟩ => rfl)
    rw [e6]
    refine congrArg (· * x6 (ix2 n r)) (Finset.sum_congr rfl fun k _ => ?_)
    have el : lidx_main_v25 (lidx_main_v26 (ix2 p n) r) k = ix2 p k := funext fun a => Fin.ext (by match a with | ⟨0, _⟩ => rfl | ⟨1, _⟩ => rfl)
    have er : ridx_main_v25 (lidx_main_v26 (ix2 p n) r) k = ix2 r k := funext fun a => Fin.ext (by match a with | ⟨0, _⟩ => rfl | ⟨1, _⟩ => rfl)
    rw [el, er]
  rw [h2, h3, h4, hr, h27, hl]
  rfl

end Cert.ReferenceIdeal.RefValue

end
-- ==== Proof.lean ====
/-
  A ternary linear layer with a low-rank correction: the kernel against its jnp reference, over the extended reals.

  The layer computes, for 256 rows of activations `x` and 11008 outputs,
      out(p, n) = ((∑ᵢ x(p,i) · T(n,i)) · alpha(n) + mu(n) · ∑ᵢ x(p,i)) + 2 · ∑ᵣ (∑ᵢ x(p,i) · A(r,i)) · B(n,r) + bias(n),
  where the weights `T(n,i) ∈ {-1, 0, 1, 2}` are stored sixteen to a 32-bit word, `T(n,i)` being the two-bit field
  `i mod 16` of word `i / 16` of row `n`, minus one.

  The reference unpacks all 4096 weights of a row and contracts once over `i`. The kernel never forms that row: it lays
  the activations out so that the columns with the same `i mod 16` are contiguous, and for each field `j` multiplies that
  column block by the field-`j` weights of all 256 words, accumulating the sixteen products; the row sums and the first
  low-rank product are computed once before the kernel runs, and each of the 43 grid points produces 256 output columns.
  At the exact values the two are one function: the kernel's double sum over fields and words is the reference's sum
  over positions regrouped (`i = 16·k + j`), which needs only that addition is commutative and associative; the rest
  of the expression is the same operations in the same order, and conversions between float formats are the identity.
  No input has to be finite for this, so the precondition is not used.

  The two kernel frames and the kernel's run are the generated ones; the reference's frame is its generated run with
  the result dropped; the idealization rewrote nothing, so `preserves` is trivial.
-/
import proofs.«401683_j34686155882823_2_alg».proof.Defs
import proofs.«401683_j34686155882823_2_alg».proof.Proof.Gen.Kernel
import proofs.«401683_j34686155882823_2_alg».proof.Proof.Gen.Kernel.Skeleton
import proofs.«401683_j34686155882823_2_alg».proof.Proof.Gen.Kernel.Launch
import proofs.«401683_j34686155882823_2_alg».proof.Proof.Gen.Kernel.Points
import proofs.«401683_j34686155882823_2_alg».proof.Proof.Gen.Kernel.Frame
import proofs.«401683_j34686155882823_2_alg».proof.Proof.Gen.KernelIdeal
import proofs.«401683_j34686155882823_2_alg».proof.Proof.Gen.KernelIdeal.Skeleton
import proofs.«401683_j34686155882823_2_alg».proof.Proof.Gen.KernelIdeal.Launch
import proofs.«401683_j34686155882823_2_alg».proof.Proof.Gen.KernelIdeal.Points
import proofs.«401683_j34686155882823_2_alg».proof.Proof.Gen.KernelIdeal.Frame
import proofs.«401683_j34686155882823_2_alg».proof.Proof.Gen.ReferenceIdeal
import proofs.«401683_j34686155882823_2_alg».proof.Proof.Gen.Pre_finite_inputs
import proofs.«401683_j34686155882823_2_alg».proof.Proof.Gen.KernelIdeal.Value
import proofs.«401683_j34686155882823_2_alg».proof.Proof.Gen.ReferenceIdeal.Run
import proofs.«401683_j34686155882823_2_alg».proof.Proof.Gen.ReferenceIdeal.Read
import proofs.«401683_j34686155882823_2_alg».proof.Proof.Final
import proofs.«401683_j34686155882823_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the exact values the kernel's result array ends at the layer's function of its arguments, and so does the
    reference's, of arguments that agree. -/
theorem algebraic : Cert.algebraic_KernelIdeal_ReferenceIdeal := by
  intro m ρ m' ρ' _ hagree
  refine ⟨fun c => Cert.KernelIdeal.Final.res m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.Read.val_main_v32_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
  rw [Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
